-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x1 : Shape := ⟨2, ![800000, 1]⟩
abbrev S128x129 : Shape := ⟨2, ![128, 129]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x129 : S_.BroadcastsInDim S128x129 (![] : Fin 0 → Fin S128x129.rank)
  reducesTo_S128x129_S_d0_1 : S128x129.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 4294917296#32
  let main_v39 : IVec S2x800000 32 := broadcastInDim S2x800000 ![] bcast_S_S2x800000 main_c_14
  let main_v40 : IVec S2x800000 1 := cmpi .sge main_arg1 main_v39
  let main_c_15 : IVec S_ 32 := constantI S_ 32 50000#32
  let main_v41 : IVec S2x800000 32 := broadcastInDim S2x800000 ![] bcast_S_S2x800000 main_c_15
  let main_v42 : IVec S2x800000 1 := cmpi .slt main_arg1 main_v41
  let main_v43 : IVec S2x800000 1 := andi main_v40 main_v42
  let main_c_16 : IVec S_ 1 := constantI S_ 1 1#1
  let main_v44 : IVec S_ 1 := (fun x v => Host.reduce IntOp.andi x v reducesTo_S2x800000_S_d0_1 h_S_) main_v43 main_c_16
  let main_v45 : IVec S_ 1 := andi main_v38 main_v44
  main_v45

def fn_part1 {F : FTy → Type} [FloatOps F] (main_arg1 : IVec S2x800000 32) (main_arg5 : FVec F S64x128 .f32) (main_arg6 : FVec F S64 .f32) (main_arg7 : FVec F S1x64 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg7
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg1 main_arg8 main_v33

def fn {F : FTy → Type} [FloatOps F] (main_arg0 : FVec F S50000x64 .f32) (main_arg1 : IVec S2x800000 32) (main_arg2 : FVec F S800000x1 .f32) (main_arg3 : FVec F S128x129 .f32) (main_arg4 : FVec F S128 .f32) (main_arg5 : FVec F S64x128 .f32) (main_arg6 : FVec F S64 .f32) (main_arg7 : FVec F S1x64 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x129 .f32 := Host.absf main_arg3
  let main_cst_2 : FVec F S_ .f32 := constant S_ .f32 0x7F800000#32
  let main_v10 : FVec F S128x129 .f32 := broadcastInDim S128x129 ![] bcast_S_S128x129 main_cst_2
  let main_v11 : IVec S128x129 1 := cmpf .olt main_v9 main_v10
  let main_c_3 : IVec S_ 1 := constantI S_ 1 1#1
  let main_v12 : IVec S_ 1 := (fun x v => Host.reduce IntOp.andi x v reducesTo_S128x129_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S50000x64 : Shape := ⟨2, ![50000, 64]⟩
abbrev S2x800000 : Shape := ⟨2, ![2, 800000]⟩
abbrev S800000x1 : Shape := ⟨2, ![800000, 1]⟩
abbrev S128x129 : Shape := ⟨2, ![128, 129]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S1x1 : Shape := ⟨2, ![1, 1]⟩
abbrev S800000x64 : Shape := ⟨2, ![800000, 64]⟩
abbrev S1x128 : Shape := ⟨2, ![1, 128]⟩
abbrev S10000x1 : Shape := ⟨2, ![10000, 1]⟩
abbrev S10000x64 : Shape := ⟨2, ![10000, 64]⟩
abbrev S10000x129 : Shape := ⟨2, ![10000, 129]⟩
abbrev S129x128 : Shape := ⟨2, ![129, 128]⟩
abbrev S10000x128 : Shape := ⟨2, ![10000, 128]⟩
abbrev S128x64 : Shape := ⟨2, ![128, 64]⟩
abbrev S10000 : Shape := ⟨1, ![10000]⟩

abbrev nBuf : Space → Nat
  | .hbm => 63
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x1, .f32⟩
  | .hbm, ⟨3, _⟩ => ⟨S128x129, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x64, .f32⟩
  | .hbm, ⟨30, _⟩ => ⟨S800000x64, .i1⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S1x800000, .i32⟩
  | .hbm, ⟨35, _⟩ => ⟨S800000, .i32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S1, .i32⟩
  | .hbm, ⟨45, _⟩ => ⟨S_, .i32⟩
  | .hbm, ⟨46, _⟩ => ⟨S800000x1, .i32⟩
  | .hbm, ⟨47, _⟩ => ⟨S800000x1, .i1⟩
  | .hbm, ⟨48, _⟩ => ⟨S1x1, .i32⟩
  | .hbm, ⟨49, _⟩ => ⟨S800000x1, .i32⟩
  | .hbm, ⟨50, _⟩ => ⟨S800000x1, .i1⟩
  | .hbm, ⟨51, _⟩ => ⟨S800000x1, .i1⟩
  | .hbm, ⟨52, _⟩ => ⟨S_, .i1⟩
  | .hbm, ⟨53, _⟩ => ⟨S800000, .i1⟩
  | .hbm, ⟨54, _⟩ => ⟨S800000x64, .f32⟩
  | .hbm, ⟨55, _⟩ => ⟨S800000x64, .i1⟩
  | .hbm, ⟨56, _⟩ => ⟨S_, .f32⟩
  | .hbm, ⟨57, _⟩ => ⟨S800000x64, .f32⟩
  | .hbm, ⟨58, _⟩ => ⟨S800000x64, .f32⟩
  | .hbm, ⟨59, _⟩ => ⟨S1x128, .f32⟩
  | .hbm, ⟨60, _⟩ => ⟨S1x64, .f32⟩
  | .hbm, ⟨61, _⟩ => ⟨S1x1, .f32⟩
  | .hbm, ⟨62, _⟩ => ⟨S800000x1, .f32⟩
  | .local _ .vmem, ⟨0, _⟩ => ⟨S10000x1, .f32⟩
  | .local _ .vmem, ⟨1, _⟩ => ⟨S10000x1, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S128x129, .f32⟩
  | .local _ .vmem, ⟨7, _⟩ => ⟨S1x128, .f32⟩
  | .local _ .vmem, ⟨8, _⟩ => ⟨S64x128, .f32⟩
  | .local _ .vmem, ⟨9, _⟩ => ⟨S1x64, .f32⟩
  | .local _ .vmem, ⟨10, _⟩ => ⟨S1x64, .f32⟩
  | .local _ .vmem, ⟨11, _⟩ => ⟨S1x1, .f32⟩
  | .local _ .vmem, ⟨12, _⟩ => ⟨S10000x1, .f32⟩
  | .local _ .vmem, ⟨13, _⟩ => ⟨S10000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x129 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S2x800000_S1x800000_1_0 : S2x800000.Slices ![1, 0] S1x800000
  shapeCasts_S128_S1x128 : S128.ShapeCasts S1x128
  shapeCasts_S64_S1x64 : S64.ShapeCasts S1x64
  shapeCasts_S1_S1x1 : S1.ShapeCasts S1x1
  inb_S10000x1_S10000x1_0_0 : ∀ a, (![0, 0] : Fin 2 → Nat) a + S10000x1.size a ≤ S10000x1.size a
  h_S10000x1 : 0 < S10000x1.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  concatenates_S10000x1_S10000x64_S10000x64_S10000x129_d1 : Shape.Concatenates [S10000x1, S10000x64, S10000x64] S10000x129 1
  inb_S128x129_S128x129_0_0 : ∀ a, (![0, 0] : Fin 2 → Nat) a + S128x129.size a ≤ S128x129.size a
  h_S128x129 : 0 < S128x129.numel
  transposes_S128x129_p1_0_S129x128 : S128x129.Transposes [1, 0] S129x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  gather_S50000x64_S800000x1_S800000x64_1_0_n_n_0_1_164_wf : GatherDims.WF S50000x64 S800000x1 S800000x64 [1] [0] [] [0] [] 1 ![1, 64]
  dot_S10000x129_S129x128_S10000x128_1_0_0_1_n_n_wf : DotDims.WF S10000x129 S129x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S800000x1.size a
  hwx0_0 : ∀ i : grid0.Coords, EltTy.bits .f32 = 32 ∨ (Rect.block (s := S800000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S800000x64.size a
  hwx0_2 : ∀ i : grid0.Coords, EltTy.bits .f32 = 32 ∨ (Rect.block (s := S800000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x129.size a ≤ S128x129.size a
  hwx0_3 : ∀ i : grid0.Coords, EltTy.bits .f32 = 32 ∨ (Rect.block (s := S128x129) S128x129.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x1.size a ≤ S800000x1.size a
  hwx0_9 : ∀ i : grid0.Coords, EltTy.bits .f32 = 32 ∨ (Rect.block (s := S800000x1) S10000x1.size (cc0_transform_9 i) (hinb0_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x129_S129x128_S10000x128_1_0_0_1_n_n : DotDims S10000x129 S129x128 S10000x128 where
  lhsContracting := [1]
  rhsContracting := [0]
  lhsNonContracting := [0]
  rhsNonContracting := [1]
  lhsBatch := []
  rhsBatch := []
  wf := dot_S10000x129_S129x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg2) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x129.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S10000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x1 : Shape := ⟨2, ![800000, 1]⟩
abbrev S128x129 : Shape := ⟨2, ![128, 129]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x64 : Shape := ⟨2, ![800000, 64]⟩
abbrev S800000x129 : Shape := ⟨2, ![800000, 129]⟩
abbrev S129x128 : Shape := ⟨2, ![129, 128]⟩
abbrev S800000x128 : Shape := ⟨2, ![800000, 128]⟩
abbrev S1x128 : Shape := ⟨2, ![1, 128]⟩
abbrev S128x64 : Shape := ⟨2, ![128, 64]⟩
abbrev S64x1 : Shape := ⟨2, ![64, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x1, .f32⟩
  | .hbm, ⟨3, _⟩ => ⟨S128x129, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x129, .f32⟩
  | .hbm, ⟨32, _⟩ => ⟨S129x128, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S128x64, .f32⟩
  | .hbm, ⟨41, _⟩ => ⟨S800000x64, .f32⟩
  | .hbm, ⟨42, _⟩ => ⟨S1x64, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S800000x64, .f32⟩
  | .hbm, ⟨47, _⟩ => ⟨S800000x64, .f32⟩
  | .hbm, ⟨48, _⟩ => ⟨S64x1, .f32⟩
  | .hbm, ⟨49, _⟩ => ⟨S800000x1, .f32⟩
  | .hbm, ⟨50, _⟩ => ⟨S1x1, .f32⟩
  | .hbm, ⟨51, _⟩ => ⟨S800000x1, .f32⟩
  | .hbm, ⟨52, _⟩ => ⟨S800000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  concatenates_S800000x1_S800000x64_S800000x64_S800000x129_d1 : Shape.Concatenates [S800000x1, S800000x64, S800000x64] S800000x129 1
  transposes_S128x129_S129x128_1_0 : S128x129.Transposes [1, 0] S129x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S64x128_S128x64_1_0 : S64x128.Transposes [1, 0] S128x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  transposes_S1x64_S64x1_1_0 : S1x64.Transposes [1, 0] S64x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  gather_S50000x64_S800000x1_S800000x64_1_0_n_n_0_1_164_wf : GatherDims.WF S50000x64 S800000x1 S800000x64 [1] [0] [] [0] [] 1 ![1, 64]
  dot_S800000x129_S129x128_S800000x128_1_0_0_1_n_n_wf : DotDims.WF S800000x129 S129x128 S800000x128 [1] [0] [0] [1] [] []
  dot_S800000x128_S128x64_S800000x64_1_0_0_1_n_n_wf : DotDims.WF S800000x128 S128x64 S800000x64 [1] [0] [0] [1] [] []
  dot_S800000x64_S64x1_S800000x1_1_0_0_1_n_n_wf : DotDims.WF S800000x64 S64x1 S800000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x128_S800000x128_1_0_0_1_n_n : DotDims S800000x129 S129x128 S800000x128 where
  lhsContracting := [1]
  rhsContracting := [0]
  lhsNonContracting := [0]
  rhsNonContracting := [1]
  lhsBatch := []
  rhsBatch := []
  wf := dot_S800000x129_S129x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf

class Facts : Prop extends Facts₀ where

variable [Facts]
-- ==== Proof.PreRange.lean ====
/-
  The precondition's last conjunct read back: it says every index word of the two-row index array lies in
  `[-50000, 50000)`, the words that name a row of the 50000-row node table (a negative word counting from the end).
-/
import proofs.«422463_j88991722373554_2_alg».proof.Pre_finite_inputs
import Idealize.ShloMosaic.Lib.ReduceAll
import Idealize.ShloMosaic.Lib.ValueIdx

noncomputable section

namespace Cert.Pre_finite_inputs.Range

open Cert.Pre_finite_inputs Idealize.ShloMosaic

variable [Facts]

instance : Subsingleton S_.Idx := ⟨fun a b => funext fun d => d.elim0⟩

/-- Where the precondition is all ones, each index word is in `[-50000, 50000)`. -/
theorem idx_range {F : FTy → Type} [FloatOps F] (a0 : FVec F S50000x64 .f32) (a1 : IVec S2x800000 32) (a2 : FVec F S800000x1 .f32)
    (a3 : FVec F S128x129 .f32) (a4 : FVec F S128 .f32) (a5 : FVec F S64x128 .f32) (a6 : FVec F S64 .f32) (a7 : FVec F S1x64 .f32)
    (a8 : FVec F S1 .f32) (h : fn (F := F) a0 a1 a2 a3 a4 a5 a6 a7 a8 = fun _ => 1#1) (i : S2x800000.Idx) :
    -50000 ≤ (a1 i).toInt ∧ (a1 i).toInt < 50000 := by
  have h0 := congrFun h ValueIdx.ix0
  simp only [fn, fn_part1, fn_part2] at h0
  have h44 := (IntOp.andi_eq_one.1 h0).2
  have hi := Host.reduce_andi_all _ _ _ _ ValueIdx.ix0 h44 i
  obtain ⟨g1, g2⟩ := IntOp.andi_eq_one.1 hi
  have g1' : (4294917296#32 : BitVec 32).toInt ≤ (a1 i).toInt := IntOp.cmpi_sge.1 g1
  have g2' : (a1 i).toInt < (50000#32 : BitVec 32).toInt := IntOp.cmpi_slt.1 g2
  have z1 : (4294917296#32 : BitVec 32).toInt = -50000 := by decide
  have z2 : (50000#32 : BitVec 32).toInt = 50000 := by decide
  rw [z1] at g1'; rw [z2] at g2'
  exact ⟨g1', g2'⟩

end Cert.Pre_finite_inputs.Range

end
-- ==== Proof.Spec.lean ====
/-
  The edge update as a function of one edge's numbers.

  An edge `e` carries a weight `w e`, the 64 features of its source node and the 64 of its target node; laid side by
  side they are a row of 129 numbers (`feat`). Three affine layers act on the row, the first two followed by
  `max · 0`:
      h₁ j = max (∑ₐ row a · W₁ j a + b₁ j) 0      (128 of them)
      h₂ k = max (∑ⱼ h₁ j · W₂ k j + b₂ k) 0       (64 of them)
      out  = ∑ₖ h₂ k · W₃ k + b₃
  (`mlp`). `edgeOut` is the [800000, 1] array of these, one entry per edge. All sums are finite sums of extended
  reals: their order and grouping do not matter.
-/
import Idealize.ShloMosaic.PureOps.Ideal
import Idealize.ShloMosaic.Lib.ValueIdx

noncomputable section

namespace Cert.EdgeMlp

open Idealize.ShloMosaic Idealize.ShloMosaic.ValueIdx

/-- One edge's row: its weight, then the source node's features, then the target node's. -/
def feat (w : EReal) (s t : Fin 64 → EReal) (a : Fin 129) : EReal :=
  if _h0 : a.val < 1 then w
  else if h1 : a.val < 65 then s ⟨a.val - 1, by omega⟩
  else t ⟨a.val - 65, by have := a.isLt; omega⟩

/-- The three layers on one row. -/
def mlp (row : Fin 129 → EReal) (W1 : Fin 128 → Fin 129 → EReal) (b1 : Fin 128 → EReal) (W2 : Fin 64 → Fin 128 → EReal)
    (b2 : Fin 64 → EReal) (W3 : Fin 64 → EReal) (b3 : EReal) : EReal :=
  (∑ k : Fin 64, max ((∑ j : Fin 128, max ((∑ a : Fin 129, row a * W1 j a) + b1 j) 0 * W2 k j) + b2 k) 0 * W3 k) + b3

/-- The updated edge weights: entry `(e, 0)` is the three layers on edge `e`'s row. -/
def edgeOut (ew : (⟨2, ![800000, 1]⟩ : Shape).Idx → EReal) (src tgt : (⟨2, ![800000, 64]⟩ : Shape).Idx → EReal)
    (W1 : (⟨2, ![128, 129]⟩ : Shape).Idx → EReal) (b1 : Fin 128 → EReal) (W2 : (⟨2, ![64, 128]⟩ : Shape).Idx → EReal)
    (b2 : Fin 64 → EReal) (W3 : (⟨2, ![1, 64]⟩ : Shape).Idx → EReal) (b3 : EReal) :
    (⟨2, ![800000, 1]⟩ : Shape).Idx → EReal := fun i =>
  mlp (feat (ew (ix2 (i 0) 0)) (fun q => src (ix2 (i 0) q)) (fun q => tgt (ix2 (i 0) q)))
    (fun j a => W1 (ix2 j a)) b1 (fun k j => W2 (ix2 k j)) b2 (fun k => W3 (ix2 0 k)) b3

end Cert.EdgeMlp

end
-- ==== Proof.RefValue.lean ====
/-
  The reference's result, read entry by entry: entry `(e, 0)` is the three layers of `Cert.EdgeMlp.mlp` on edge `e`'s
  row — its weight beside the two gathered feature rows. The two gathered arrays are kept as they stand (their
  entries are not opened): the kernel reads the same two arrays.
-/
import proofs.«422463_j88991722373554_2_alg».proof.Proof.Gen.ReferenceIdeal.Read
import proofs.«422463_j88991722373554_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The weight column beside the two gathered arrays, at row `e` and column `a`: the edge's row of 129 numbers. -/
theorem concat_apply (v0 : FVec Ideal S800000x1 .f32) (v2 v4 : FVec Ideal S800000x64 .f32) (e : Fin 800000) (a : Fin 129) :
    concatenate S800000x129 1 [⟨S800000x1, v0⟩, ⟨S800000x64, v2⟩, ⟨S800000x64, v4⟩]
        concatenates_S800000x1_S800000x64_S800000x64_S800000x129_d1 (ix2 e a)
      = EdgeMlp.feat (v0 (ix2 e 0)) (fun q => v2 (ix2 e q)) (fun q => v4 (ix2 e q)) a := by
  unfold EdgeMlp.feat
  split
  · next h0 =>
    refine concatenate_apply_piece (t := S800000x129) 1 _ _ (ix2 e a) 0 (by simp) S800000x1 v0 rfl rfl 0 rfl (ix2 e 0)
      (fun b hb => ?_) ?_
    · match b with
      | ⟨0, _⟩ => rfl
      | ⟨1, _⟩ => exact absurd rfl hb
    · show 0 + 0 = a.val; omega
  · next h0 =>
    split
    · next h1 =>
      refine concatenate_apply_piece (t := S800000x129) 1 _ _ (ix2 e a) 1 (by simp) S800000x64 v2 rfl rfl 1 rfl
        (ix2 e ⟨a.val - 1, by omega⟩) (fun b hb => ?_) ?_
      · match b with
        | ⟨0, _⟩ => rfl
        | ⟨1, _⟩ => exact absurd rfl hb
      · show 1 + (a.val - 1) = a.val; omega
    · next h1 =>
      refine concatenate_apply_piece (t := S800000x129) 1 _ _ (ix2 e a) 2 (by simp) S800000x64 v4 rfl rfl 65 rfl
        (ix2 e ⟨a.val - 65, by have := a.isLt; omega⟩) (fun b hb => ?_) ?_
      · match b with
        | ⟨0, _⟩ => rfl
        | ⟨1, _⟩ => exact absurd rfl hb
      · show 65 + (a.val - 65) = a.val; omega

variable (x0 : FVec Ideal S50000x64 .f32) (x1 : IVec S2x800000 32) (x2 : FVec Ideal S800000x1 .f32) (x3 : FVec Ideal S128x129 .f32)
  (x4 : FVec Ideal S128 .f32) (x5 : FVec Ideal S64x128 .f32) (x6 : FVec Ideal S64 .f32) (x7 : FVec Ideal S1x64 .f32) (x8 : FVec Ideal S1 .f32)

/-- The row of edge `e`. -/
abbrev row (e : Fin 800000) : Fin 129 → EReal :=
  EdgeMlp.feat (x2 (ix2 e 0)) (fun q => val_main_v8 (F := Ideal) x0 x1 (ix2 e q)) (fun q => val_main_v17 (F := Ideal) x0 x1 (ix2 e q))

/-- The first layer at edge `e` and hidden column `j`. -/
theorem layer1 (e : Fin 800000) (j : Fin 128) :
    val_main_v24 (F := Ideal) x0 x1 x2 x3 x4 (ix2 e j)
      = max ((∑ a : Fin 129, row x0 x1 x2 e a * x3 (ix2 j a)) + x4 (ix1 j)) 0 := by
  rw [val_main_v24_apply, val_main_v23_apply, val_main_v20_apply, val_main_v22_apply, val_main_v21_apply, val_main_call0_v0_apply,
    val_main_call0_cst_apply]
  show max (_ + _) (Ideal.ofBits .f32 0x00000000#32) = _
  rw [Ideal.ofBits_zero_f32]
  refine congrArg (fun s => max s 0) (congrArg₂ (· + ·) (Finset.sum_congr rfl fun a _ => ?_) (congrArg x4 ?_))
  · rw [val_main_v19_apply]
    refine congrArg₂ (· * ·) ?_ (congrArg x3 ?_)
    · have e1 : lidx_main_v20 (ix2 e j) a = ix2 e a := funext fun b => match b with | ⟨0, _⟩ => rfl | ⟨1, _⟩ => rfl
      rw [e1]; unfold val_main_v18; exact concat_apply _ _ _ e a
    · exact funext fun b => match b with | ⟨0, _⟩ => rfl | ⟨1, _⟩ => rfl
  · exact funext fun b => match b with | ⟨0, _⟩ => rfl

/-- The second layer at edge `e` and column `k`. -/
theorem layer2 (e : Fin 800000) (k : Fin 64) :
    val_main_v30 (F := Ideal) x0 x1 x2 x3 x4 x5 x6 (ix2 e k)
      = max ((∑ j : Fin 128, max ((∑ a : Fin 129, row x0 x1 x2 e a * x3 (ix2 j a)) + x4 (ix1 j)) 0 * x5 (ix2 k j)) + x6 (ix1 k)) 0 := by
  rw [val_main_v30_apply, val_main_v29_apply, val_main_v26_apply, val_main_v28_apply, val_main_v27_apply, val_main_call1_v0_apply,
    val_main_call1_cst_apply]
  show max (_ + _) (Ideal.ofBits .f32 0x00000000#32) = _
  rw [Ideal.ofBits_zero_f32]
  refine congrArg (fun s => max s 0) (congrArg₂ (· + ·) (Finset.sum_congr rfl fun j _ => ?_) (congrArg x6 ?_))
  · rw [val_main_v25_apply]
    refine congrArg₂ (· * ·) ?_ (congrArg x5 ?_)
    · have e1 : lidx_main_v26 (ix2 e k) j = ix2 e j := funext fun b => match b with | ⟨0, _⟩ => rfl | ⟨1, _⟩ => rfl
      rw [e1]; exact layer1 x0 x1 x2 x3 x4 e j
    · exact funext fun b => match b with | ⟨0, _⟩ => rfl | ⟨1, _⟩ => rfl
  · exact funext fun b => match b with | ⟨0, _⟩ => rfl

/-- THE REFERENCE'S RESULT is the array of `Cert.EdgeMlp.edgeOut` over the edge weights, the two gathered arrays and the
    six parameters. -/
theorem result_eq :
    val_main_v35 (F := Ideal) x0 x1 x2 x3 x4 x5 x6 x7 x8
      = EdgeMlp.edgeOut x2 (val_main_v8 (F := Ideal) x0 x1) (val_main_v17 (F := Ideal) x0 x1) x3 (fun j => x4 (ix1 j)) x5
          (fun k => x6 (ix1 k)) x7 (x8 (ix1 0)) := by
  funext i
  obtain ⟨e, q, rfl⟩ : ∃ (e : Fin 800000) (q : Fin 1), i = ix2 e q := ⟨i 0, i 1, eq_ix2 i⟩
  have hq : q = 0 := Subsingleton.elim _ _
  subst hq
  rw [val_main_v35_apply, val_main_v32_apply, val_main_v34_apply, val_main_v33_apply]
  unfold EdgeMlp.edgeOut EdgeMlp.mlp
  refine congrArg₂ (· + ·) (Finset.sum_congr rfl fun k _ => ?_) (congrArg x8 ?_)
  · rw [val_main_v31_apply]
    refine congrArg₂ (· * ·) ?_ (congrArg x7 ?_)
    · have e1 : lidx_main_v32 (ix2 e 0) k = ix2 e k := funext fun b => match b with | ⟨0, _⟩ => rfl | ⟨1, _⟩ => rfl
      rw [e1]; exact layer2 x0 x1 x2 x3 x4 x5 x6 e k
    · exact funext fun b => match b with | ⟨0, _⟩ => rfl | ⟨1, _⟩ => rfl
  · exact funext fun b => match b with | ⟨0, _⟩ => rfl

end Cert.ReferenceIdeal.RefValue

end
-- ==== Proof.KernelRow.lean ====
/-
  The kernel body's one stored value, read at an entry: row `p` of a block of 10000 edges goes through the three
  layers of `Cert.EdgeMlp.mlp`.
-/
import proofs.«422463_j88991722373554_2_alg».proof.Proof.Gen.KernelIdeal.Skeleton
import proofs.«422463_j88991722373554_2_alg».proof.Proof.Spec
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx

/-- The three blocks laid side by side, at row `p` and column `a`: the edge's row of 129 numbers. -/
theorem concat_apply (v0 : FVec Ideal S10000x1 .f32) (v2 v4 : FVec Ideal S10000x64 .f32) (p : Fin 10000) (a : Fin 129) :
    concatenate S10000x129 1 [⟨S10000x1, v0⟩, ⟨S10000x64, v2⟩, ⟨S10000x64, v4⟩]
        concatenates_S10000x1_S10000x64_S10000x64_S10000x129_d1 (ix2 p a)
      = EdgeMlp.feat (v0 (ix2 p 0)) (fun q => v2 (ix2 p q)) (fun q => v4 (ix2 p q)) a := by
  unfold EdgeMlp.feat
  split
  · next h0 =>
    refine concatenate_apply_piece (t := S10000x129) 1 _ _ (ix2 p a) 0 (by simp) S10000x1 v0 rfl rfl 0 rfl (ix2 p 0)
      (fun b hb => ?_) ?_
    · match b with
      | ⟨0, _⟩ => rfl
      | ⟨1, _⟩ => exact absurd rfl hb
    · show 0 + 0 = a.val; omega
  · next h0 =>
    split
    · next h1 =>
      refine concatenate_apply_piece (t := S10000x129) 1 _ _ (ix2 p a) 1 (by simp) S10000x64 v2 rfl rfl 1 rfl
        (ix2 p ⟨a.val - 1, by omega⟩) (fun b hb => ?_) ?_
      · match b with
        | ⟨0, _⟩ => rfl
        | ⟨1, _⟩ => exact absurd rfl hb
      · show 1 + (a.val - 1) = a.val; omega
    · next h1 =>
      refine concatenate_apply_piece (t := S10000x129) 1 _ _ (ix2 p a) 2 (by simp) S10000x64 v4 rfl rfl 65 rfl
        (ix2 p ⟨a.val - 65, by have := a.isLt; omega⟩) (fun b hb => ?_) ?_
      · match b with
        | ⟨0, _⟩ => rfl
        | ⟨1, _⟩ => exact absurd rfl hb
      · show 65 + (a.val - 65) = a.val; omega

/-! ## The two matrix products -/

theorem lhs1_0 (i : S10000x128.Idx) (q : dot_S10000x129_S129x128_S10000x128_1_0_0_1_n_n.contr.Idx) :
    (dot_S10000x129_S129x128_S10000x128_1_0_0_1_n_n.lhsIdx i q 0).val = (i 0).val := by
  unfold DotDims.lhsIdx
  rw [dif_neg (show ¬(0 : Fin S10000x129.rank) ∈ dot_S10000x129_S129x128_S10000x128_1_0_0_1_n_n.lhsBatch by decide), dif_pos (show (0 : Fin S10000x129.rank) ∈ dot_S10000x129_S129x128_S10000x128_1_0_0_1_n_n.lhsNonContracting by decide)]
  rfl
theorem lhs1_1 (i : S10000x128.Idx) (q : dot_S10000x129_S129x128_S10000x128_1_0_0_1_n_n.contr.Idx) :
    (dot_S10000x129_S129x128_S10000x128_1_0_0_1_n_n.lhsIdx i q 1).val = (q ⟨0, by decide⟩).val :=
  dot_S10000x129_S129x128_S10000x128_1_0_0_1_n_n.lhsIdx_val_of_single rfl i q
theorem rhs1_0 (i : S10000x128.Idx) (q : dot_S10000x129_S129x128_S10000x128_1_0_0_1_n_n.contr.Idx) :
    (dot_S10000x129_S129x128_S10000x128_1_0_0_1_n_n.rhsIdx i q 0).val = (q ⟨0, by decide⟩).val :=
  dot_S10000x129_S129x128_S10000x128_1_0_0_1_n_n.rhsIdx_val_of_single rfl i q
theorem rhs1_1 (i : S10000x128.Idx) (q : dot_S10000x129_S129x128_S10000x128_1_0_0_1_n_n.contr.Idx) :
    (dot_S10000x129_S129x128_S10000x128_1_0_0_1_n_n.rhsIdx i q 1).val = (i 1).val := by
  unfold DotDims.rhsIdx
  rw [dif_neg (show ¬(1 : Fin S129x128.rank) ∈ dot_S10000x129_S129x128_S10000x128_1_0_0_1_n_n.rhsBatch by decide), dif_pos (show (1 : Fin S129x128.rank) ∈ dot_S10000x129_S129x128_S10000x128_1_0_0_1_n_n.rhsNonContracting by decide)]
  rfl

/-- The first product into the zero accumulator, at row `p` and column `j`: the sum over the 129 columns of the row. -/
theorem matmul1_apply (l : FVec Ideal S10000x129 .f32) (r : FVec Ideal S129x128 .f32) (p : Fin 10000) (j : Fin 128) :
    matmul dot_S10000x129_S129x128_S10000x128_1_0_0_1_n_n none l r (constant S10000x128 .f32 0x00000000#32) (ix2 p j)
      = ∑ a : Fin 129, l (ix2 p a) * r (ix2 a j) := by
  simp only [matmul]
  rw [Ideal.matmul_constant_zero_apply, ← Equiv.sum_comp (contrEquiv1 dot_S10000x129_S129x128_S10000x128_1_0_0_1_n_n 129 rfl rfl).symm]
  refine Finset.sum_congr rfl fun k _ => ?_
  have hk := contrEquiv1_symm_val dot_S10000x129_S129x128_S10000x128_1_0_0_1_n_n 129 rfl rfl k
  have el : dot_S10000x129_S129x128_S10000x128_1_0_0_1_n_n.lhsIdx (ix2 p j) ((contrEquiv1 dot_S10000x129_S129x128_S10000x128_1_0_0_1_n_n 129 rfl rfl).symm k) = ix2 p k := funext fun a => Fin.ext (by
    match a with
    | ⟨0, _⟩ => exact lhs1_0 _ _
    | ⟨1, _⟩ => exact (lhs1_1 _ _).trans hk)
  have er : dot_S10000x129_S129x128_S10000x128_1_0_0_1_n_n.rhsIdx (ix2 p j) ((contrEquiv1 dot_S10000x129_S129x128_S10000x128_1_0_0_1_n_n 129 rfl rfl).symm k) = ix2 k j := funext fun a => Fin.ext (by
    match a with
    | ⟨0, _⟩ => exact (rhs1_0 _ _).trans hk
    | ⟨1, _⟩ => exact rhs1_1 _ _)
  rw [el, er]

theorem lhs2_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs2_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs2_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs2_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The second product into the zero accumulator, at row `p` and column `k`: the sum over the 128 hidden columns. -/
theorem matmul2_apply (l : FVec Ideal S10000x128 .f32) (r : FVec Ideal S128x64 .f32) (p : Fin 10000) (k : Fin 64) :
    matmul dot_S10000x128_S128x64_S10000x64_1_0_0_1_n_n none l r (constant S10000x64 .f32 0x00000000#32) (ix2 p k)
      = ∑ j : Fin 128, l (ix2 p j) * r (ix2 j k) := by
  simp only [matmul]
  rw [Ideal.matmul_constant_zero_apply, ← Equiv.sum_comp (contrEquiv1 dot_S10000x128_S128x64_S10000x64_1_0_0_1_n_n 128 rfl rfl).symm]
  refine Finset.sum_congr rfl fun j _ => ?_
  have hj := contrEquiv1_symm_val dot_S10000x128_S128x64_S10000x64_1_0_0_1_n_n 128 rfl rfl j
  have el : dot_S10000x128_S128x64_S10000x64_1_0_0_1_n_n.lhsIdx (ix2 p k) ((contrEquiv1 dot_S10000x128_S128x64_S10000x64_1_0_0_1_n_n 128 rfl rfl).symm j) = ix2 p j := funext fun a => Fin.ext (by
    match a with
    | ⟨0, _⟩ => exact lhs2_0 _ _
    | ⟨1, _⟩ => exact (lhs2_1 _ _).trans hj)
  have er : dot_S10000x128_S128x64_S10000x64_1_0_0_1_n_n.rhsIdx (ix2 p k) ((contrEquiv1 dot_S10000x128_S128x64_S10000x64_1_0_0_1_n_n 128 rfl rfl).symm j) = ix2 j k := funext fun a => Fin.ext (by
    match a with
    | ⟨0, _⟩ => exact (rhs2_0 _ _).trans hj
    | ⟨1, _⟩ => exact rhs2_1 _ _)
  rw [el, er]

/-! ## The row sum -/

/-- The sum along a row of 64, from the zero accumulator. -/
theorem rowsum_apply (x : FVec Ideal S10000x64 .f32) (p : Fin 10000) (hφ : FKind.Formats .f32)
    (hacc : (0x00000000#32 : BitVec FTy.f32.bits) = FKind.add.neutral .f32 hφ) :
    multiReduction .add [1] S10000 x 0x00000000#32 reduces_S10000x64_S10000 hφ hacc (ix1 p) = ∑ k : Fin 64, x (ix2 p k) := by
  refine (Ideal.multiReduction_add_single x 0x00000000#32 reduces_S10000x64_S10000 hφ hacc (ix1 p)).trans ?_
  show ∑ k : Fin 64, x (reduces_S10000x64_S10000.lift (ix1 p) k) = _
  refine Finset.sum_congr rfl fun k _ => congrArg x (funext fun a => Fin.ext ?_)
  show Shape.Reduces.liftVal reduces_S10000x64_S10000 (ix1 p) k.val a = (ix2 p k a).val
  unfold Shape.Reduces.liftVal
  match a with
  | ⟨0, _⟩ =>
    split
    · next hc => exact absurd hc Nat.zero_ne_one
    · split
      · rfl
      · next hlt => exact absurd Nat.zero_lt_one hlt
  | ⟨1, _⟩ =>
    split
    · rfl
    · next hc => exact absurd rfl hc

/-! ## Re-laid operands -/

/-- The first weight matrix transposed: entry `(a, j)` is `W₁ j a`. -/
theorem tr1_apply (x : FVec Ideal S128x129 .f32) (a : Fin 129) (j : Fin 128) :
    transpose S129x128 [1, 0] x transposes_S128x129_p1_0_S129x128 (ix2 a j) = x (ix2 j a) :=
  transpose_apply [1, 0] x transposes_S128x129_p1_0_S129x128 (ix2 a j) (ix2 j a) (fun b => match b with
    | ⟨0, _⟩ => rfl
    | ⟨1, _⟩ => rfl)

/-- The second weight matrix transposed: entry `(j, k)` is `W₂ k j`. -/
theorem tr2_apply (x : FVec Ideal S64x128 .f32) (j : Fin 128) (k : Fin 64) :
    transpose S128x64 [1, 0] x transposes_S64x128_p1_0_S128x64 (ix2 j k) = x (ix2 k j) :=
  transpose_apply [1, 0] x transposes_S64x128_p1_0_S128x64 (ix2 j k) (ix2 k j) (fun b => match b with
    | ⟨0, _⟩ => rfl
    | ⟨1, _⟩ => rfl)

/-- A one-row matrix of 128 repeated down the 10000 rows. -/
theorem bc128_apply (x : FVec Ideal S1x128 .f32) (p : Fin 10000) (j : Fin 128) :
    broadcastTo S10000x128 x broadcasts_S1x128_S10000x128 (ix2 p j) = x (ix2 0 j) :=
  broadcastTo_apply x broadcasts_S1x128_S10000x128 (ix2 p j) (ix2 0 j) (fun a => match a with
    | ⟨0, _⟩ => by show 0 = if (1 : Nat) = 1 then 0 else _; rw [if_pos rfl]
    | ⟨1, _⟩ => by show j.val = if (128 : Nat) = 1 then 0 else j.val; rw [if_neg (by decide)])

/-- A one-row matrix of 64 repeated down the 10000 rows. -/
theorem bc64_apply (x : FVec Ideal S1x64 .f32) (p : Fin 10000) (k : Fin 64) :
    broadcastTo S10000x64 x broadcasts_S1x64_S10000x64 (ix2 p k) = x (ix2 0 k) :=
  broadcastTo_apply x broadcasts_S1x64_S10000x64 (ix2 p k) (ix2 0 k) (fun a => match a with
    | ⟨0, _⟩ => by show 0 = if (1 : Nat) = 1 then 0 else _; rw [if_pos rfl]
    | ⟨1, _⟩ => by show k.val = if (64 : Nat) = 1 then 0 else k.val; rw [if_neg (by decide)])

/-- The one number of a [1, 1] matrix repeated down the 10000 rows. -/
theorem bc1_apply (x : FVec Ideal S1x1 .f32) (p : Fin 10000) (q : Fin 1) :
    broadcastTo S10000x1 x broadcasts_S1x1_S10000x1 (ix2 p q) = x (ix2 0 0) :=
  broadcastTo_apply x broadcasts_S1x1_S10000x1 (ix2 p q) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- A vector of 10000 as a one-column matrix. -/
theorem col_apply (x : FVec Ideal S10000 .f32) (p : Fin 10000) (q : Fin 1) :
    shapeCast S10000x1 x shapeCasts_S10000_S10000x1 (ix2 p q) = x (ix1 p) :=
  shapeCast_apply x shapeCasts_S10000_S10000x1 (ix2 p q) (ix1 p)
    (by rewrite [Shape.rowMajor_val_two, Shape.rowMajor_val_one]; have := q.isLt; show p.val = p.val * 1 + q.val; omega)

/-! ## The stored value -/

/-- Entry `(p, 0)` of the value the body stores: the three layers on row `p` of the blocks. -/
theorem pay_apply (v0 : FVec Ideal S10000x1 .f32) (v1 v3 : FVec Ideal S10000x64 .f32) (v6 : FVec Ideal S128x129 .f32)
    (v9 : FVec Ideal S1x128 .f32) (v15 : FVec Ideal S64x128 .f32) (v18 v24 : FVec Ideal S1x64 .f32) (v29 : FVec Ideal S1x1 .f32)
    (p : Fin 10000) (q : Fin 1) :
    k0_pay1 (F := Ideal) v0 v1 v3 v6 v9 v15 v18 v24 v29 (ix2 p q)
      = EdgeMlp.mlp (EdgeMlp.feat (v0 (ix2 p 0)) (fun a => v1 (ix2 p a)) (fun a => v3 (ix2 p a))) (fun j a => v6 (ix2 j a))
          (fun j => v9 (ix2 0 j)) (fun k j => v15 (ix2 k j)) (fun k => v18 (ix2 0 k)) (fun k => v24 (ix2 0 k)) (v29 (ix2 0 0)) := by
  unfold k0_pay1 EdgeMlp.mlp
  simp only [addf_apply, col_apply, bc1_apply, shapeCast_self]
  refine (congrArg (· + v29 (ix2 0 0)) (rowsum_apply _ p _ _)).trans ?_
  simp only [addf_apply, mulf_apply, maximumf_apply, broadcast_apply, shapeCast_self, bc64_apply, bc128_apply,
    matmul2_apply, matmul1_apply, tr1_apply, tr2_apply, concat_apply]
  refine congrArg (· + v29 (ix2 0 0)) (Finset.sum_congr rfl fun k _ => ?_)
  refine congrArg (· * v24 (ix2 0 k)) ?_
  show max (_ + _) (Ideal.ofBits .f32 0x00000000#32) = _
  rw [Ideal.ofBits_zero_f32]
  refine congrArg (fun s => max (s + v18 (ix2 0 k)) 0) (Finset.sum_congr rfl fun j _ => ?_)
  refine congrArg₂ (· * ·) ?_ (tr2_apply v15 j k)
  show max (_ + _) (Ideal.ofBits .f32 0x00000000#32) = _
  rw [Ideal.ofBits_zero_f32]
  refine congrArg (fun s => max (s + v9 (ix2 0 j)) 0) (Finset.sum_congr rfl fun a _ => ?_)
  exact congrArg₂ (· * ·) rfl (tr1_apply v6 a j)

end Cert.KernelIdeal.Row

end
-- ==== Proof.KernelBlocks.lean ====
/-
  From the blocks to the array. Grid point `t` of 80 works on edges `10000 t … 10000 t + 9999`: its blocks of the edge
  weights and of the two gathered feature arrays are those rows, the six parameter arrays come whole, and what it
  writes back is rows `10000 t …` of the result. Row `p` of the written block is the three layers on edge
  `10000 t + p` (the stored value read at an entry), which is entry `10000 t + p` of `Cert.EdgeMlp.edgeOut` over the
  arrays the region finds. The 80 blocks cover the 800000 rows, so the result array after the run is `edgeOut`.
-/
import proofs.«422463_j88991722373554_2_alg».proof.Proof.Gen.KernelIdeal.Value
import proofs.«422463_j88991722373554_2_alg».proof.Proof.KernelRow

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The arrays the region finds, each at its literal type. -/
abbrev ewArr (c : Dev nD) : FVec Ideal S800000x1 .f32 := V m c main_arg2
abbrev srcArr (c : Dev nD) : FVec Ideal S800000x64 .f32 := V m c main_v2
abbrev tgtArr (c : Dev nD) : FVec Ideal S800000x64 .f32 := V m c main_v5
abbrev w1Arr (c : Dev nD) : FVec Ideal S128x129 .f32 := V m c main_arg3
abbrev b1Arr (c : Dev nD) : FVec Ideal S1x128 .f32 := V m c main_v6
abbrev w2Arr (c : Dev nD) : FVec Ideal S64x128 .f32 := V m c main_arg5
abbrev b2Arr (c : Dev nD) : FVec Ideal S1x64 .f32 := V m c main_v7
abbrev w3Arr (c : Dev nD) : FVec Ideal S1x64 .f32 := V m c main_arg7
abbrev b3Arr (c : Dev nD) : FVec Ideal S1x1 .f32 := V m c main_v8

/-- The result array as one function of the arrays the region finds. -/
def outArr (c : Dev nD) : FVec Ideal S800000x1 .f32 :=
  EdgeMlp.edgeOut (ewArr m c) (srcArr m c) (tgtArr m c) (w1Arr m c) (fun j => b1Arr m c (ix2 0 j)) (w2Arr m c)
    (fun k => b2Arr m c (ix2 0 k)) (w3Arr m c) (b3Arr m c (ix2 0 0))

theorem hz : (![0, 0] : Fin 2 → Nat) = fun _ => 0 := funext fun a => by fin_cases a <;> rfl

/-- The printed index maps over the 80 points: the three edge windows and the output move by one block of rows per
    point, the six parameter windows stay at block `(0, 0)`. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem t_lt (t : Fin cfg0.N) : t.val < 80 := lt_of_lt_of_eq t.isLt N_0

/-- Edge `10000 t + p`. -/
def edgeOf (t : Fin cfg0.N) (p : Fin 10000) : Fin 800000 := ⟨t.val * 10000 + p.val, by have := t_lt t; have := p.isLt; omega⟩

/-! ## What each window's block holds

Stated for ANY array in the window's place: the block at point `t`, read at an entry, is the array at the entry the
printed index map sends it to. -/

/-- Row `p` of the edge-weight window's block at point `t` is row `10000 t + p` of its array. -/
theorem blk0 (A : FVec Ideal S800000x1 .f32) (t : Fin cfg0.N) (p : Fin 10000) (q : Fin 1) :
    ((cfg0.win 0).blk t).view.read (Elt Ideal) A (ix2 p q) = A (ix2 (edgeOf t p) q) := by
  obtain ⟨-, -, e0, e1, -⟩ := idx_facts t
  show A (((cfg0.win 0).blk t).view.emb (ix2 p q)) = A (ix2 (edgeOf t p) q)
  refine congrArg A (funext fun a => Fin.ext ?_)
  match a with
  | ⟨0, _⟩ => show win0_0.index t (0 : Fin 2) * 10000 + 1 * p.val = t.val * 10000 + p.val; omega
  | ⟨1, _⟩ => show win0_0.index t (1 : Fin 2) * 1 + 1 * q.val = q.val; omega

/-- Row `p` of the source-feature window's block at point `t` is row `10000 t + p` of its array. -/
theorem blk1 (A : FVec Ideal S800000x64 .f32) (t : Fin cfg0.N) (p : Fin 10000) (q : Fin 64) :
    ((cfg0.win 1).blk t).view.read (Elt Ideal) A (ix2 p q) = A (ix2 (edgeOf t p) q) := by
  obtain ⟨-, -, -, -, e0, e1, -⟩ := idx_facts t
  show A (((cfg0.win 1).blk t).view.emb (ix2 p q)) = A (ix2 (edgeOf t p) q)
  refine congrArg A (funext fun a => Fin.ext ?_)
  match a with
  | ⟨0, _⟩ => show win0_1.index t (0 : Fin 2) * 10000 + 1 * p.val = t.val * 10000 + p.val; omega
  | ⟨1, _⟩ => show win0_1.index t (1 : Fin 2) * 64 + 1 * q.val = q.val; omega

/-- The same for the target-feature window. -/
theorem blk2 (A : FVec Ideal S800000x64 .f32) (t : Fin cfg0.N) (p : Fin 10000) (q : Fin 64) :
    ((cfg0.win 2).blk t).view.read (Elt Ideal) A (ix2 p q) = A (ix2 (edgeOf t p) q) := by
  obtain ⟨-, -, -, -, -, -, e0, e1, -⟩ := idx_facts t
  show A (((cfg0.win 2).blk t).view.emb (ix2 p q)) = A (ix2 (edgeOf t p) q)
  refine congrArg A (funext fun a => Fin.ext ?_)
  match a with
  | ⟨0, _⟩ => show win0_2.index t (0 : Fin 2) * 10000 + 1 * p.val = t.val * 10000 + p.val; omega
  | ⟨1, _⟩ => show win0_2.index t (1 : Fin 2) * 64 + 1 * q.val = q.val; omega

/-- The six parameter windows hold their whole arrays at every point. -/
theorem blk3 (A : FVec Ideal S128x129 .f32) (t : Fin cfg0.N) (j : Fin 128) (a : Fin 129) :
    ((cfg0.win 3).blk t).view.read (Elt Ideal) A (ix2 j a) = A (ix2 j a) := by
  obtain ⟨-, -, -, -, -, -, -, -, e0, e1, -⟩ := idx_facts t
  show A (((cfg0.win 3).blk t).view.emb (ix2 j a)) = A (ix2 j a)
  refine congrArg A (funext fun b => Fin.ext ?_)
  match b with
  | ⟨0, _⟩ => show win0_3.index t (0 : Fin 2) * 128 + 1 * j.val = j.val; omega
  | ⟨1, _⟩ => show win0_3.index t (1 : Fin 2) * 129 + 1 * a.val = a.val; omega

theorem blk4 (A : FVec Ideal S1x128 .f32) (t : Fin cfg0.N) (z : Fin 1) (j : Fin 128) :
    ((cfg0.win 4).blk t).view.read (Elt Ideal) A (ix2 z j) = A (ix2 z j) := by
  obtain ⟨-, -, -, -, -, -, -, -, -, -, e0, e1, -⟩ := idx_facts t
  show A (((cfg0.win 4).blk t).view.emb (ix2 z j)) = A (ix2 z j)
  refine congrArg A (funext fun b => Fin.ext ?_)
  match b with
  | ⟨0, _⟩ => show win0_4.index t (0 : Fin 2) * 1 + 1 * z.val = z.val; omega
  | ⟨1, _⟩ => show win0_4.index t (1 : Fin 2) * 128 + 1 * j.val = j.val; omega

theorem blk5 (A : FVec Ideal S64x128 .f32) (t : Fin cfg0.N) (k : Fin 64) (j : Fin 128) :
    ((cfg0.win 5).blk t).view.read (Elt Ideal) A (ix2 k j) = A (ix2 k j) := by
  obtain ⟨-, -, -, -, -, -, -, -, -, -, -, -, e0, e1, -⟩ := idx_facts t
  show A (((cfg0.win 5).blk t).view.emb (ix2 k j)) = A (ix2 k j)
  refine congrArg A (funext fun b => Fin.ext ?_)
  match b with
  | ⟨0, _⟩ => show win0_5.index t (0 : Fin 2) * 64 + 1 * k.val = k.val; omega
  | ⟨1, _⟩ => show win0_5.index t (1 : Fin 2) * 128 + 1 * j.val = j.val; omega

theorem blk6 (A : FVec Ideal S1x64 .f32) (t : Fin cfg0.N) (z : Fin 1) (k : Fin 64) :
    ((cfg0.win 6).blk t).view.read (Elt Ideal) A (ix2 z k) = A (ix2 z k) := by
  obtain ⟨-, -, -, -, -, -, -, -, -, -, -, -, -, -, e0, e1, -⟩ := idx_facts t
  show A (((cfg0.win 6).blk t).view.emb (ix2 z k)) = A (ix2 z k)
  refine congrArg A (funext fun b => Fin.ext ?_)
  match b with
  | ⟨0, _⟩ => show win0_6.index t (0 : Fin 2) * 1 + 1 * z.val = z.val; omega
  | ⟨1, _⟩ => show win0_6.index t (1 : Fin 2) * 64 + 1 * k.val = k.val; omega

theorem blk7 (A : FVec Ideal S1x64 .f32) (t : Fin cfg0.N) (z : Fin 1) (k : Fin 64) :
    ((cfg0.win 7).blk t).view.read (Elt Ideal) A (ix2 z k) = A (ix2 z k) := by
  obtain ⟨-, -, -, -, -, -, -, -, -, -, -, -, -, -, -, -, e0, e1, -⟩ := idx_facts t
  show A (((cfg0.win 7).blk t).view.emb (ix2 z k)) = A (ix2 z k)
  refine congrArg A (funext fun b => Fin.ext ?_)
  match b with
  | ⟨0, _⟩ => show win0_7.index t (0 : Fin 2) * 1 + 1 * z.val = z.val; omega
  | ⟨1, _⟩ => show win0_7.index t (1 : Fin 2) * 64 + 1 * k.val = k.val; omega

theorem blk8 (A : FVec Ideal S1x1 .f32) (t : Fin cfg0.N) (z z' : Fin 1) :
    ((cfg0.win 8).blk t).view.read (Elt Ideal) A (ix2 z z') = A (ix2 z z') := by
  obtain ⟨-, -, -, -, -, -, -, -, -, -, -, -, -, -, -, -, -, -, e0, e1⟩ := idx_facts t
  show A (((cfg0.win 8).blk t).view.emb (ix2 z z')) = A (ix2 z z')
  refine congrArg A (funext fun b => Fin.ext ?_)
  match b with
  | ⟨0, _⟩ => show win0_8.index t (0 : Fin 2) * 1 + 1 * z.val = z.val; omega
  | ⟨1, _⟩ => show win0_8.index t (1 : Fin 2) * 1 + 1 * z'.val = z'.val; omega

/-- The output window's block at point `t` sits at rows `10000 t …`: entry `(p, q)` of the block is entry
    `(10000 t + p, q)` of the array. -/
theorem emb9 (t : Fin cfg0.N) (p : Fin 10000) (q : Fin 1) :
    ((cfg0.win 9).blk t).view.emb (ix2 p q) = ix2 (edgeOf t p) q := by
  obtain ⟨e0, e1, -⟩ := idx_facts t
  refine funext fun a => Fin.ext ?_
  match a with
  | ⟨0, _⟩ => show win0_9.index t (0 : Fin 2) * 10000 + 1 * p.val = t.val * 10000 + p.val; omega
  | ⟨1, _⟩ => show win0_9.index t (1 : Fin 2) * 1 + 1 * q.val = q.val; omega

/-! ## What point `t` writes back -/

/-- The blocks read at point `t` are the arrays the region finds, at the rows of point `t`. -/
theorem read0 (c : Dev nD) (t : Fin cfg0.N) (p : Fin 10000) (q : Fin 1) :
    iblk m c 0 t (ix2 p q) = ewArr m c (ix2 (edgeOf t p) q) := by
  unfold iblk
  exact blk0 _ t p q

theorem read1 (c : Dev nD) (t : Fin cfg0.N) (p : Fin 10000) (q : Fin 64) :
    iblk m c 1 t (ix2 p q) = srcArr m c (ix2 (edgeOf t p) q) := by
  unfold iblk
  exact blk1 _ t p q

theorem read2 (c : Dev nD) (t : Fin cfg0.N) (p : Fin 10000) (q : Fin 64) :
    iblk m c 2 t (ix2 p q) = tgtArr m c (ix2 (edgeOf t p) q) := by
  unfold iblk
  exact blk2 _ t p q

theorem read3 (c : Dev nD) (t : Fin cfg0.N) (j : Fin 128) (a : Fin 129) : iblk m c 3 t (ix2 j a) = w1Arr m c (ix2 j a) := by
  unfold iblk
  exact blk3 _ t j a

theorem read4 (c : Dev nD) (t : Fin cfg0.N) (z : Fin 1) (j : Fin 128) : iblk m c 4 t (ix2 z j) = b1Arr m c (ix2 z j) := by
  unfold iblk
  exact blk4 _ t z j

theorem read5 (c : Dev nD) (t : Fin cfg0.N) (k : Fin 64) (j : Fin 128) : iblk m c 5 t (ix2 k j) = w2Arr m c (ix2 k j) := by
  unfold iblk
  exact blk5 _ t k j

theorem read6 (c : Dev nD) (t : Fin cfg0.N) (z : Fin 1) (k : Fin 64) : iblk m c 6 t (ix2 z k) = b2Arr m c (ix2 z k) := by
  unfold iblk
  exact blk6 _ t z k

theorem read7 (c : Dev nD) (t : Fin cfg0.N) (z : Fin 1) (k : Fin 64) : iblk m c 7 t (ix2 z k) = w3Arr m c (ix2 z k) := by
  unfold iblk
  exact blk7 _ t z k

theorem read8 (c : Dev nD) (t : Fin cfg0.N) (z z' : Fin 1) : iblk m c 8 t (ix2 z z') = b3Arr m c (ix2 z z') := by
  unfold iblk
  exact blk8 _ t z z'

/-- The three layers depend on the row and the six parameters only through their values. -/
theorem mlp_congr {row row' : Fin 129 → EReal} {W1 W1' : Fin 128 → Fin 129 → EReal} {b1 b1' : Fin 128 → EReal}
    {W2 W2' : Fin 64 → Fin 128 → EReal} {b2 b2' : Fin 64 → EReal} {W3 W3' : Fin 64 → EReal} {b3 b3' : EReal}
    (h0 : row = row') (h1 : W1 = W1') (h2 : b1 = b1') (h3 : W2 = W2') (h4 : b2 = b2') (h5 : W3 = W3') (h6 : b3 = b3') :
    EdgeMlp.mlp row W1 b1 W2 b2 W3 b3 = EdgeMlp.mlp row' W1' b1' W2' b2' W3' b3' := by
  subst h0 h1 h2 h3 h4 h5 h6; rfl

theorem feat_congr {w w' : EReal} {s s' t t' : Fin 64 → EReal} (h0 : w = w') (h1 : s = s') (h2 : t = t') :
    EdgeMlp.feat w s t = EdgeMlp.feat w' s' t' := by
  subst h0 h1 h2; rfl

/-- WHAT POINT `t` WRITES BACK is block `t` of `outArr`: row `p` of the stored value is the three layers on the rows the
    blocks hold, which are edge `10000 t + p`'s. -/
theorem flushed_eq (c : Dev nD) (t : Fin cfg0.N) :
    (dats m 0 c).flushed 9 t = ((cfg0.win 9).blk t).view.read (Elt Ideal) (outArr m c) := by
  rw [Value.flushed9]
  unfold out0_9
  rw [View.canon_unit_zero hz]
  simp only [View.ld_unit_zero (S := S10000x1) hz, View.ld_unit_zero (S := S10000x64) hz, View.ld_unit_zero (S := S128x129) hz,
    View.ld_unit_zero (S := S1x128) hz, View.ld_unit_zero (S := S64x128) hz, View.ld_unit_zero (S := S1x64) hz,
    View.ld_unit_zero (S := S1x1) hz]
  funext y
  obtain ⟨p, q, rfl⟩ : ∃ (p : Fin 10000) (q : Fin 1), y = ix2 p q := ⟨y 0, y 1, eq_ix2 y⟩
  show k0_pay1 (F := Ideal) (iblk m c 0 t) (iblk m c 1 t) (iblk m c 2 t) (iblk m c 3 t) (iblk m c 4 t) (iblk m c 5 t) (iblk m c 6 t)
      (iblk m c 7 t) (iblk m c 8 t) (ix2 p q) = outArr m c (((cfg0.win 9).blk t).view.emb (ix2 p q))
  rw [emb9]
  refine (Row.pay_apply (iblk m c 0 t) (iblk m c 1 t) (iblk m c 2 t) (iblk m c 3 t) (iblk m c 4 t) (iblk m c 5 t) (iblk m c 6 t)
    (iblk m c 7 t) (iblk m c 8 t) p q).trans ?_
  unfold outArr EdgeMlp.edgeOut
  exact mlp_congr
    (feat_congr (read0 m c t p 0) (funext fun a => read1 m c t p a) (funext fun a => read2 m c t p a))
    (funext fun j => funext fun a => read3 m c t j a) (funext fun j => read4 m c t 0 j)
    (funext fun k => funext fun j => read5 m c t k j) (funext fun k => read6 m c t 0 k) (funext fun k => read7 m c t 0 k)
    (read8 m c t 0 0)

/-! ## The cover -/

/-- An index of the result array is in point `t`'s block iff each coordinate is in the block's range on its axis. -/
theorem mem_blk (t : Fin cfg0.N) (i : S800000x1.Idx) :
    i ∈ ((cfg0.win 9).blk t).view.set ↔ ∀ a : Fin 2, win0_9.index t a * S10000x1.size a ≤ (i a).val ∧ (i a).val < win0_9.index t a * S10000x1.size a + S10000x1.size a := by
  show i ∈ ((View.whole main_v9).slice (win0_9.rect t)).set ↔ _
  rw [View.set_slice_whole, Rect.mem_set_unit]
  exact Iff.rfl

/-- Row `r` of the result lies in the block of point `r / 10000`. -/
theorem cover (i : S800000x1.Idx) : ∃ t : Fin cfg0.N, (cfg0.win 9).flush t = true ∧ i ∈ ((cfg0.win 9).blk t).view.set := by
  have hi0 : (i 0).val < 800000 := (i 0).isLt
  have hi1 : (i 1).val < 1 := (i 1).isLt
  have hN : (i 0).val / 10000 < cfg0.N := by show _ < grid0.N; rw [N_0]; omega
  obtain ⟨e0, e1, -⟩ := idx_facts ⟨(i 0).val / 10000, hN⟩
  refine ⟨⟨(i 0).val / 10000, hN⟩, flush0_9 _, ?_⟩
  rw [mem_blk]
  intro a
  match a with
  | ⟨0, _⟩ =>
    show win0_9.index ⟨(i 0).val / 10000, hN⟩ (0 : Fin 2) * 10000 ≤ (i 0).val ∧ (i 0).val < win0_9.index ⟨(i 0).val / 10000, hN⟩ (0 : Fin 2) * 10000 + 10000
    have e0' : win0_9.index ⟨(i 0).val / 10000, hN⟩ (0 : Fin 2) = (i 0).val / 10000 := e0
    omega
  | ⟨1, _⟩ =>
    show win0_9.index ⟨(i 0).val / 10000, hN⟩ (1 : Fin 2) * 1 ≤ (i 1).val ∧ (i 1).val < win0_9.index ⟨(i 0).val / 10000, hN⟩ (1 : Fin 2) * 1 + 1
    omega

/-- THE RESULT ARRAY after the run is `outArr`. -/
theorem final (c : Dev nD) : (dats m 0 c).arrAt 9 cfg0.N = outArr m c :=
  (dats m 0 c).arrAt_eq_of_cover 9 (outArr m c) (fun t _ => flushed_eq m c t) cover

end Cert.KernelIdeal.Blocks

end
-- ==== Proof.Take.lean ====
/-
  A row gather with out-of-range fill, on a table of 50000 rows.

  An index word `w` is first made non-negative the way array indexing does it: a negative `w` counts from the end
  (`w + 50000`). The kernel's gather then keeps the gathered row only where the wrapped word lies in `[0, 49999]`
  and writes a fill value elsewhere; the reference gathers with the same wrapped word and no fill. For a word in
  `[-50000, 50000)` the wrapped word is in `[0, 49999]`, the keep-mask is all ones, and the fill is never taken:
  the two gathers are one array.
-/
import proofs.«422463_j88991722373554_2_alg».proof.Proof.Gen.KernelIdeal
import Idealize.ShloMosaic.Lib.ReduceAll
import Idealize.ShloMosaic.Lib.Pipeline.Value
import Idealize.ShloMosaic.Lib.ValueIdx

noncomputable section

namespace Cert.KernelIdeal.Take

open Cert.KernelIdeal Cert.KernelIdeal.Gen Idealize.ShloMosaic

/-! ## Words -/

private theorem bmod32 {n : Int} (h₁ : -2 ^ 31 ≤ n) (h₂ : n < 2 ^ 31) : n.bmod (2 ^ 32) = n :=
  Int.bmod_eq_of_le (by omega) (by omega)

/-- A signed word in `[-50000, 50000)`, wrapped from the end when negative, lies in `[0, 49999]`: both range
    tests of the kept rows answer one. -/
theorem wrap_in_range (w : BitVec 32) (h₁ : -50000 ≤ w.toInt) (h₂ : w.toInt < 50000) :
    IntOp.cmpi .sge (Scalar.select (IntOp.cmpi .slt w 0#32) (IntOp.addi w 50000#32) w) 0#32 = 1#1
    ∧ IntOp.cmpi .sle (Scalar.select (IntOp.cmpi .slt w 0#32) (IntOp.addi w 50000#32) w) 49999#32 = 1#1 := by
  have z0 : (0#32 : BitVec 32).toInt = 0 := by decide
  have z1 : (49999#32 : BitVec 32).toInt = 49999 := by decide
  have z2 : (50000#32 : BitVec 32).toInt = 50000 := by decide
  rw [IntOp.cmpi_sge, IntOp.cmpi_sle, z0, z1]
  by_cases hneg : w.toInt < 0
  · have hc : IntOp.cmpi .slt w 0#32 = 1#1 := IntOp.cmpi_slt.2 (by rw [z0]; exact hneg)
    have hs : (IntOp.addi w 50000#32).toInt = w.toInt + 50000 := by
      rw [IntOp.addi, BitVec.toInt_add, z2, bmod32 (by omega) (by omega)]
    rw [hc, ValueIdx.select_one, hs]
    omega
  · have hc : IntOp.cmpi .slt w 0#32 = 0#1 :=
      ValueIdx.eq_zero_of_ne_one fun h => hneg (by have := IntOp.cmpi_slt.1 h; rw [z0] at this; exact this)
    rw [hc, ValueIdx.select_zero]
    omega

/-- A left fold by `and` from one over words that are all one is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- A reduction by `and`, from one, of an array of ones is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ fun n _ => hx n

/-! ## The two gathers -/

variable {F : FTy → Type} [FloatOps F]

/-- A row of signed index words made non-negative (a negative word counts from the end of the 50000 rows), as the
    one-column array of start indices the gather takes. -/
def wrapIdx (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The gather with fill: row `e` of the table `x` at the wrapped word where that word is in `[0, 49999]`, the fill
    value elsewhere. -/
def takeFill (x : FVec F S50000x64 .f32) (r : IVec S800000 32) : FVec F S800000x64 .f32 :=
  select
    (broadcastInDim S800000x64 ![0] bcast_S800000_S800000x64_0
      (Host.reduce IntOp.andi
        (andi (cmpi .sge (wrapIdx r) (broadcastInDim S800000x1 ![] bcast_S_S800000x1 (constantI S_ 32 0#32)))
          (cmpi .sle (wrapIdx r) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_))
    (Host.gather gather_S50000x64_S800000x1_S800000x64_1_0_n_n_0_1_164 x (wrapIdx r))
    (broadcastInDim S800000x64 ![] bcast_S_S800000x64 (constant S_ .f32 0x7FC00000#32))

/-- The wrapped word of edge `i`. -/
theorem wrapIdx_apply (r : IVec S800000 32) (i : S800000x1.Idx) :
    wrapIdx r i = Scalar.select (IntOp.cmpi .slt (r (ValueIdx.ix1 (i 0))) 0#32) (IntOp.addi (r (ValueIdx.ix1 (i 0))) 50000#32)
      (r (ValueIdx.ix1 (i 0))) := by
  unfold wrapIdx
  rw [broadcastInDim_apply _ bcast_S800000_S800000x1_0 _ i (ValueIdx.ix1 (i 0)) (fun a => match a with
    | ⟨0, _⟩ => by show (i 0).val = if (800000 : Nat) = 1 then 0 else (i 0).val; rw [if_neg (by decide)])]
  show Scalar.select (IntOp.cmpi .slt (r (ValueIdx.ix1 (i 0))) _) (IntOp.addi (r (ValueIdx.ix1 (i 0))) _) _ = _
  rfl

/-- With every index word in `[-50000, 50000)` the fill is never taken: the gather with fill is the plain gather at the
    wrapped words. -/
theorem takeFill_eq (x : FVec F S50000x64 .f32) (r : IVec S800000 32)
    (hr : ∀ e : S800000.Idx, -50000 ≤ (r e).toInt ∧ (r e).toInt < 50000) :
    takeFill x r = Host.gather gather_S50000x64_S800000x1_S800000x64_1_0_n_n_0_1_164 x (wrapIdx r) := by
  funext j
  unfold takeFill
  rw [ValueIdx.select_apply]
  have hmask : ∀ i : S800000x1.Idx,
      andi (cmpi .sge (wrapIdx r) (broadcastInDim S800000x1 ![] bcast_S_S800000x1 (constantI S_ 32 0#32)))
        (cmpi .sle (wrapIdx r) (broadcastInDim S800000x1 ![0, 1] bcast_S1x1_S800000x1_0_1
          (broadcastInDim S1x1 ![1] bcast_S1_S1x1_1 (constantI S1 32 49999#32)))) i = 1#1 := by
    intro i
    obtain ⟨h₁, h₂⟩ := hr (ValueIdx.ix1 (i 0))
    obtain ⟨g₁, g₂⟩ := wrap_in_range _ h₁ h₂
    show IntOp.andi (IntOp.cmpi .sge (wrapIdx r i) _) (IntOp.cmpi .sle (wrapIdx r i) _) = 1#1
    rw [wrapIdx_apply, IntOp.andi_eq_one]
    exact ⟨g₁, g₂⟩
  have hone : ∀ k : S800000.Idx, Host.reduce IntOp.andi
        (andi (cmpi .sge (wrapIdx r) (broadcastInDim S800000x1 ![] bcast_S_S800000x1 (constantI S_ 32 0#32)))
          (cmpi .sle (wrapIdx r) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_ k = 1#1 :=
    fun k => reduce_andi_ones _ _ _ _ hmask (fun _ => rfl) k
  rw [broadcastInDim_apply _ bcast_S800000_S800000x64_0 _ j (ValueIdx.ix1 (j 0)) (fun a => match a with
    | ⟨0, _⟩ => by show (j 0).val = if (800000 : Nat) = 1 then 0 else (j 0).val; rw [if_neg (by decide)]), hone,
    ValueIdx.select_one]

end Cert.KernelIdeal.Take

end
-- ==== Proof.KernelHost.lean ====
/-
  What the kernel's region finds in the arrays the host operations before it wrote: the two gathered feature arrays
  (rows of the node table at the source and target index words, with out-of-range fill) and the three biases as
  one-row matrices.
-/
import proofs.«422463_j88991722373554_2_alg».proof.Proof.Gen.KernelIdeal.Frame
import proofs.«422463_j88991722373554_2_alg».proof.Proof.Take
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- A transport there and back along an equation of types is the identity. -/
theorem cast_pair {α β : Type} (h : α = β) (h' : β = α) (a : α) : cast h' (cast h a) = a := by
  subst h; rfl

/-- Row `0` of the two-row index array: the source index words. -/
def srcWords (x1 : IVec S2x800000 32) : IVec S800000 32 :=
  shapeCast S800000 (extractStridedSlice S1x800000 ![0, 0] x1 slices_S2x800000_S1x800000_0_0) shapeCasts_S1x800000_S800000

/-- Row `1`: the target index words. -/
def tgtWords (x1 : IVec S2x800000 32) : IVec S800000 32 :=
  shapeCast S800000 (extractStridedSlice S1x800000 ![1, 0] x1 slices_S2x800000_S1x800000_1_0) shapeCasts_S1x800000_S800000

set_option maxRecDepth 65536 in
set_option maxHeartbeats 2000000 in
/-- Source word `e` is entry `(0, e)` of the index array. -/
theorem srcWords_apply (x1 : IVec S2x800000 32) (e : Fin 800000) :
    srcWords x1 (ValueIdx.ix1 e) = x1 (ValueIdx.ix2 0 e) := by
  unfold srcWords
  rw [shapeCast_apply _ shapeCasts_S1x800000_S800000 (ValueIdx.ix1 e) (ValueIdx.ix2 0 e)
    (by rewrite [Shape.rowMajor_val_two, Shape.rowMajor_val_one]; show 0 * 800000 + e.val = e.val; omega)]
  exact extractStridedSlice_apply ![0, 0] x1 slices_S2x800000_S1x800000_0_0 (ValueIdx.ix2 0 e) (ValueIdx.ix2 0 e) (fun a => match a with
    | ⟨0, _⟩ => by show 0 = 0 + 0; omega
    | ⟨1, _⟩ => by show e.val = 0 + e.val; omega)

/-- Target word `e` is entry `(1, e)` of the index array. -/
theorem tgtWords_apply (x1 : IVec S2x800000 32) (e : Fin 800000) :
    tgtWords x1 (ValueIdx.ix1 e) = x1 (ValueIdx.ix2 1 e) := by
  unfold tgtWords
  rw [shapeCast_apply _ shapeCasts_S1x800000_S800000 (ValueIdx.ix1 e) (ValueIdx.ix2 0 e)
    (by rewrite [Shape.rowMajor_val_two, Shape.rowMajor_val_one]; show 0 * 800000 + e.val = e.val; omega)]
  exact extractStridedSlice_apply ![1, 0] x1 slices_S2x800000_S1x800000_1_0 (ValueIdx.ix2 0 e) (ValueIdx.ix2 1 e) (fun a => match a with
    | ⟨0, _⟩ => by show 1 = 1 + 0; omega
    | ⟨1, _⟩ => by show e.val = 0 + e.val; omega)

/-- The source features the region finds: the gather with fill at the source words. -/
theorem V_src (c : Dev nD) :
    (V m c main_v2 : FVec F S800000x64 .f32) = Take.takeFill (m ((c : Thread nD τ).loc main_arg0)) (srcWords (m ((c : Thread nD τ).loc main_arg1))) := by
  dsimp only [V]
  simp only [hostOps0, hostOps0_1, hostOps0_2, hostOps0_3, hostOps0_4, List.flatten_cons, List.flatten_nil, List.append_nil, List.cons_append,
    List.nil_append]
  after_results_simp
  simp only [TRef.toBuf, TRef.ofBuf, cast_pair]
  simp only [cast_eq]
  rfl

set_option maxRecDepth 65536 in
set_option maxHeartbeats 2000000 in
/-- The target features the region finds: the gather with fill at the target words. -/
theorem V_tgt (c : Dev nD) :
    (V m c main_v5 : FVec F S800000x64 .f32) = Take.takeFill (m ((c : Thread nD τ).loc main_arg0)) (tgtWords (m ((c : Thread nD τ).loc main_arg1))) := by
  dsimp only [V]
  simp only [hostOps0, hostOps0_1, hostOps0_2, hostOps0_3, hostOps0_4, List.flatten_cons, List.flatten_nil, List.append_nil, List.cons_append,
    List.nil_append]
  after_results_simp
  simp only [TRef.toBuf, TRef.ofBuf, cast_pair]
  simp only [cast_eq]
  rfl

set_option maxRecDepth 65536 in
set_option maxHeartbeats 2000000 in
/-- The first bias as the region finds it: a one-row matrix. -/
theorem V_b1 (c : Dev nD) :
    (V m c main_v6 : FVec F S1x128 .f32) = shapeCast S1x128 (m ((c : Thread nD τ).loc main_arg4)) shapeCasts_S128_S1x128 := by
  dsimp only [V]
  simp only [hostOps0, hostOps0_1, hostOps0_2, hostOps0_3, hostOps0_4, List.flatten_cons, List.flatten_nil, List.append_nil, List.cons_append,
    List.nil_append]
  after_results_simp
  rfl

set_option maxRecDepth 65536 in
set_option maxHeartbeats 2000000 in
/-- The second bias as the region finds it: a one-row matrix. -/
theorem V_b2 (c : Dev nD) :
    (V m c main_v7 : FVec F S1x64 .f32) = shapeCast S1x64 (m ((c : Thread nD τ).loc main_arg6)) shapeCasts_S64_S1x64 := by
  dsimp only [V]
  simp only [hostOps0, hostOps0_1, hostOps0_2, hostOps0_3, hostOps0_4, List.flatten_cons, List.flatten_nil, List.append_nil, List.cons_append,
    List.nil_append]
  after_results_simp
  rfl

set_option maxRecDepth 65536 in
set_option maxHeartbeats 2000000 in
/-- The third bias as the region finds it: a one-by-one matrix. -/
theorem V_b3 (c : Dev nD) :
    (V m c main_v8 : FVec F S1x1 .f32) = shapeCast S1x1 (m ((c : Thread nD τ).loc main_arg8)) shapeCasts_S1_S1x1 := by
  dsimp only [V]
  simp only [hostOps0, hostOps0_1, hostOps0_2, hostOps0_3, hostOps0_4, List.flatten_cons, List.flatten_nil, List.append_nil, List.cons_append,
    List.nil_append]
  after_results_simp
  rfl

end Cert.KernelIdeal.HostSide

end
-- ==== Proof.KernelFinal.lean ====
/-
  The kernel's result as a function of its nine arguments. The arrays the region finds are the arguments themselves,
  the three biases re-laid as one-row matrices, and the two gathers with fill, which under the index range are the
  plain gathers at the wrapped words.
-/
import proofs.«422463_j88991722373554_2_alg».proof.Proof.KernelBlocks
import proofs.«422463_j88991722373554_2_alg».proof.Proof.KernelHost

noncomputable section

namespace Cert.KernelIdeal.Final

open Cert.KernelIdeal Cert.KernelIdeal.Gen Idealize.ShloMosaic Idealize.ShloMosaic.TcCoe Idealize.SL.Sem Idealize.ShloMosaic.ValueIdx

/-- The updated edge weights from the nine arguments: the three layers on each edge's weight beside the node-table
    rows at its two wrapped index words. -/
def outSpec (x0 : FVec Ideal S50000x64 .f32) (x1 : IVec S2x800000 32) (x2 : FVec Ideal S800000x1 .f32) (x3 : FVec Ideal S128x129 .f32)
    (x4 : FVec Ideal S128 .f32) (x5 : FVec Ideal S64x128 .f32) (x6 : FVec Ideal S64 .f32) (x7 : FVec Ideal S1x64 .f32)
    (x8 : FVec Ideal S1 .f32) : FVec Ideal S800000x1 .f32 :=
  EdgeMlp.edgeOut x2
    (Host.gather gather_S50000x64_S800000x1_S800000x64_1_0_n_n_0_1_164 x0 (Take.wrapIdx (HostSide.srcWords x1)))
    (Host.gather gather_S50000x64_S800000x1_S800000x64_1_0_n_n_0_1_164 x0 (Take.wrapIdx (HostSide.tgtWords x1)))
    x3 (fun j => x4 (ix1 j)) x5 (fun k => x6 (ix1 k)) x7 (x8 (ix1 0))

/-- A vector of 128 as a one-row matrix, at column `j`. -/
theorem row128_apply (x : FVec Ideal S128 .f32) (j : Fin 128) : shapeCast S1x128 x shapeCasts_S128_S1x128 (ix2 0 j) = x (ix1 j) :=
  shapeCast_apply x shapeCasts_S128_S1x128 (ix2 0 j) (ix1 j)
    (by rewrite [Shape.rowMajor_val_two, Shape.rowMajor_val_one]; show j.val = 0 * 128 + j.val; omega)

theorem row64_apply (x : FVec Ideal S64 .f32) (k : Fin 64) : shapeCast S1x64 x shapeCasts_S64_S1x64 (ix2 0 k) = x (ix1 k) :=
  shapeCast_apply x shapeCasts_S64_S1x64 (ix2 0 k) (ix1 k)
    (by rewrite [Shape.rowMajor_val_two, Shape.rowMajor_val_one]; show k.val = 0 * 64 + k.val; omega)

theorem row1_apply (x : FVec Ideal S1 .f32) : shapeCast S1x1 x shapeCasts_S1_S1x1 (ix2 0 0) = x (ix1 0) :=
  shapeCast_apply x shapeCasts_S1_S1x1 (ix2 0 0) (ix1 0)
    (by rewrite [Shape.rowMajor_val_two, Shape.rowMajor_val_one]; rfl)

variable (m : (ℓ : Loc nD τ sig) → Buf (Elt Ideal) ℓ)

/-- With every index word in `[-50000, 50000)`, the function of the arrays the region finds is `outSpec` of the
    arguments. -/
theorem outArr_eq (c : Dev nD)
    (hr : ∀ i : S2x800000.Idx, -50000 ≤ (m ((c : Thread nD τ).loc main_arg1) i).toInt ∧ (m ((c : Thread nD τ).loc main_arg1) i).toInt < 50000) :
    Blocks.outArr m c = outSpec (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  have h_ew : Blocks.ewArr m c = m ((c : Thread nD τ).loc main_arg2) := V_main_arg2 m c
  have h_w1 : Blocks.w1Arr m c = m ((c : Thread nD τ).loc main_arg3) := V_main_arg3 m c
  have h_w2 : Blocks.w2Arr m c = m ((c : Thread nD τ).loc main_arg5) := V_main_arg5 m c
  have h_w3 : Blocks.w3Arr m c = m ((c : Thread nD τ).loc main_arg7) := V_main_arg7 m c
  have h_src : Blocks.srcArr m c = Host.gather gather_S50000x64_S800000x1_S800000x64_1_0_n_n_0_1_164 (m ((c : Thread nD τ).loc main_arg0))
      (Take.wrapIdx (HostSide.srcWords (m ((c : Thread nD τ).loc main_arg1)))) :=
    (HostSide.V_src m c).trans (Take.takeFill_eq _ _ fun e => by
      obtain ⟨k, rfl⟩ : ∃ k : Fin 800000, e = ix1 k := ⟨e 0, eq_ix1 e⟩
      rw [HostSide.srcWords_apply]; exact hr _)
  have h_tgt : Blocks.tgtArr m c = Host.gather gather_S50000x64_S800000x1_S800000x64_1_0_n_n_0_1_164 (m ((c : Thread nD τ).loc main_arg0))
      (Take.wrapIdx (HostSide.tgtWords (m ((c : Thread nD τ).loc main_arg1)))) :=
    (HostSide.V_tgt m c).trans (Take.takeFill_eq _ _ fun e => by
      obtain ⟨k, rfl⟩ : ∃ k : Fin 800000, e = ix1 k := ⟨e 0, eq_ix1 e⟩
      rw [HostSide.tgtWords_apply]; exact hr _)
  have h_b1 : (fun j : Fin 128 => Blocks.b1Arr m c (ix2 0 j)) = fun j => m ((c : Thread nD τ).loc main_arg4) (ix1 j) :=
    funext fun j => (congrFun (HostSide.V_b1 m c) (ix2 0 j)).trans (row128_apply _ j)
  have h_b2 : (fun k : Fin 64 => Blocks.b2Arr m c (ix2 0 k)) = fun k => m ((c : Thread nD τ).loc main_arg6) (ix1 k) :=
    funext fun k => (congrFun (HostSide.V_b2 m c) (ix2 0 k)).trans (row64_apply _ k)
  have h_b3 : Blocks.b3Arr m c (ix2 0 0) = m ((c : Thread nD τ).loc main_arg8) (ix1 0) :=
    (congrFun (HostSide.V_b3 m c) (ix2 0 0)).trans (row1_apply _)
  unfold Blocks.outArr outSpec
  rw [h_ew, h_w1, h_w2, h_w3, h_src, h_tgt, h_b1, h_b2, h_b3]

end Cert.KernelIdeal.Final

end
-- ==== Proof.Meet.lean ====
/-
  The two programs gather the same arrays: the reference's gather at the wrapped source (target) words, written out
  operation by operation, is the kernel-side gather at `wrapIdx` of the same words — the same operations at the same
  shapes, spelt once in each program's vocabulary.
-/
import proofs.«422463_j88991722373554_2_alg».proof.Proof.RefValue
import proofs.«422463_j88991722373554_2_alg».proof.Proof.KernelFinal

noncomputable section

namespace Cert.Meet

open Idealize.ShloMosaic Idealize.ShloMosaic.ValueIdx

/-- The reference's gathered source rows are the kernel side's. -/
theorem gather_src (x0 : FVec Ideal Cert.KernelIdeal.S50000x64 .f32) (x1 : IVec Cert.KernelIdeal.S2x800000 32) :
    Cert.ReferenceIdeal.Read.val_main_v8 (F := Ideal) x0 x1
      = Host.gather Cert.KernelIdeal.gather_S50000x64_S800000x1_S800000x64_1_0_n_n_0_1_164 x0
          (Cert.KernelIdeal.Take.wrapIdx (Cert.KernelIdeal.HostSide.srcWords x1)) := by
  unfold Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_c_0
    Cert.ReferenceIdeal.Read.val_main_v3 Cert.ReferenceIdeal.Read.val_main_v2 Cert.ReferenceIdeal.Read.val_main_c
    Cert.ReferenceIdeal.Read.val_main_v1 Cert.ReferenceIdeal.Read.val_main_v0
    Cert.KernelIdeal.Take.wrapIdx Cert.KernelIdeal.HostSide.srcWords
  rfl

/-- The reference's gathered target rows are the kernel side's. -/
theorem gather_tgt (x0 : FVec Ideal Cert.KernelIdeal.S50000x64 .f32) (x1 : IVec Cert.KernelIdeal.S2x800000 32) :
    Cert.ReferenceIdeal.Read.val_main_v17 (F := Ideal) x0 x1
      = Host.gather Cert.KernelIdeal.gather_S50000x64_S800000x1_S800000x64_1_0_n_n_0_1_164 x0
          (Cert.KernelIdeal.Take.wrapIdx (Cert.KernelIdeal.HostSide.tgtWords x1)) := by
  unfold Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_c_2
    Cert.ReferenceIdeal.Read.val_main_v12 Cert.ReferenceIdeal.Read.val_main_v11 Cert.ReferenceIdeal.Read.val_main_c_1
    Cert.ReferenceIdeal.Read.val_main_v10 Cert.ReferenceIdeal.Read.val_main_v9
    Cert.KernelIdeal.Take.wrapIdx Cert.KernelIdeal.HostSide.tgtWords
  rfl

/-- THE REFERENCE'S RESULT is the kernel's function of the nine arguments. -/
theorem ref_eq (x0 : FVec Ideal Cert.KernelIdeal.S50000x64 .f32) (x1 : IVec Cert.KernelIdeal.S2x800000 32)
    (x2 : FVec Ideal Cert.KernelIdeal.S800000x1 .f32) (x3 : FVec Ideal Cert.KernelIdeal.S128x129 .f32) (x4 : FVec Ideal Cert.KernelIdeal.S128 .f32)
    (x5 : FVec Ideal Cert.KernelIdeal.S64x128 .f32) (x6 : FVec Ideal Cert.KernelIdeal.S64 .f32) (x7 : FVec Ideal Cert.KernelIdeal.S1x64 .f32)
    (x8 : FVec Ideal Cert.KernelIdeal.S1 .f32) :
    Cert.ReferenceIdeal.Read.val_main_v35 (F := Ideal) x0 x1 x2 x3 x4 x5 x6 x7 x8
      = Cert.KernelIdeal.Final.outSpec x0 x1 x2 x3 x4 x5 x6 x7 x8 := by
  rw [Cert.ReferenceIdeal.RefValue.result_eq, gather_src, gather_tgt]
  rfl

end Cert.Meet

end
-- ==== Proof.lean ====
/-
  The edge update of a graph network: each of 800000 edges takes its weight and the 64 features of its source and of its
  target node (rows of a 50000-row table at the edge's two index words), lays them side by side as a row of 129, and
  sends the row through three affine layers, the first two followed by `max · 0` (`Cert.EdgeMlp.mlp`, Proof/Spec.lean).

  The kernel gathers the rows on the host with a fill value at index words that name no row, then runs the layers on
  blocks of 10000 edges: two matrix products into a zero accumulator and, for the last layer of width one, a product
  with the weight row summed along the row. The reference gathers without fill and runs three matrix products over
  all edges at once. Over the extended reals a finite sum does not depend on its order or grouping, so the layers
  agree entry by entry (Proof/KernelRow.lean, Proof/RefValue.lean); the blocks cover the array (Proof/KernelBlocks.lean).

  The two gathers differ only where an index word names no row. The precondition keeps every word in
  `[-50000, 50000)` (a negative word counts from the end, in both programs); there the kernel's keep-mask is all ones
  and its fill is never taken (Proof/Take.lean, Proof/PreRange.lean), and the two programs gather one array
  (Proof/Meet.lean). Finiteness of the float inputs is not used.

  The three frames need none of this: the two kernels' are the generated ones, the reference's is its generated run
  with the result dropped. The idealization rewrote nothing, so `preserves` is `True`.
-/
import proofs.«422463_j88991722373554_2_alg».proof.Defs
import proofs.«422463_j88991722373554_2_alg».proof.Proof.Gen.Kernel
import proofs.«422463_j88991722373554_2_alg».proof.Proof.Gen.Kernel.Skeleton
import proofs.«422463_j88991722373554_2_alg».proof.Proof.Gen.Kernel.Launch
import proofs.«422463_j88991722373554_2_alg».proof.Proof.Gen.Kernel.Points
import proofs.«422463_j88991722373554_2_alg».proof.Proof.Gen.Kernel.Frame
import proofs.«422463_j88991722373554_2_alg».proof.Proof.Gen.KernelIdeal
import proofs.«422463_j88991722373554_2_alg».proof.Proof.Gen.KernelIdeal.Skeleton
import proofs.«422463_j88991722373554_2_alg».proof.Proof.Gen.KernelIdeal.Launch
import proofs.«422463_j88991722373554_2_alg».proof.Proof.Gen.KernelIdeal.Points
import proofs.«422463_j88991722373554_2_alg».proof.Proof.Gen.KernelIdeal.Frame
import proofs.«422463_j88991722373554_2_alg».proof.Proof.Gen.ReferenceIdeal
import proofs.«422463_j88991722373554_2_alg».proof.Proof.Gen.KernelIdeal.Value
import proofs.«422463_j88991722373554_2_alg».proof.Proof.Gen.ReferenceIdeal.Run
import proofs.«422463_j88991722373554_2_alg».proof.Proof.Gen.ReferenceIdeal.Read
import proofs.«422463_j88991722373554_2_alg».proof.Proof.Gen.Pre_finite_inputs
import proofs.«422463_j88991722373554_2_alg».proof.Proof.PreRange
import proofs.«422463_j88991722373554_2_alg».proof.Proof.Meet
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at `outSpec` of the (agreeing) arguments: the kernel's by its blocks and the
    index range the precondition gives, the reference's by its operations read entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ (c : Dev Cert.KernelIdeal.nD) (i : Cert.KernelIdeal.S2x800000.Idx),
      -50000 ≤ (m ((c.tc : Thread Cert.KernelIdeal.nD Cert.KernelIdeal.τ).loc Cert.KernelIdeal.main_arg1) i).toInt
      ∧ (m ((c.tc : Thread Cert.KernelIdeal.nD Cert.KernelIdeal.τ).loc Cert.KernelIdeal.main_arg1) i).toInt < 50000 :=
    fun c i => Cert.Pre_finite_inputs.Range.idx_range _ _ _ _ _ _ _ _ _ (hpre c) i
  refine ⟨fun c => Cert.KernelIdeal.Final.outSpec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans ((Cert.KernelIdeal.Blocks.final m c).trans (Cert.KernelIdeal.Final.outArr_eq m c (hr c))), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact Cert.Meet.ref_eq _ _ _ _ _ _ _ _ _

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
